-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x1024x4096 : Shape := ⟨3, ![8, 1024, 4096]⟩
abbrev S8x4096x1024 : Shape := ⟨3, ![8, 4096, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn {F : FTy → Type} [FloatOps F] (main_arg0 : FVec F S8x2048x1024 .f32) (main_arg1 : FVec F S8x1024x4096 .f32) (main_arg2 : FVec F S8x4096x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  main_v13
-- ==== Kernel.lean ====
abbrev S8x2048x1024 : Shape := ⟨3, ![8, 2048, 1024]⟩
abbrev S8x1024x4096 : Shape := ⟨3, ![8, 1024, 4096]⟩
abbrev S8x4096x1024 : Shape := ⟨3, ![8, 4096, 1024]⟩
abbrev S1x1024x1024 : Shape := ⟨3, ![1, 1024, 1024]⟩
abbrev S1x1024x512 : Shape := ⟨3, ![1, 1024, 512]⟩
abbrev S1x512x1024 : Shape := ⟨3, ![1, 512, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x4096x1024, .f32⟩
  | .hbm, ⟨3, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x512x1024, .f32⟩
  | .local _ .vmem, ⟨5, _⟩ => ⟨S1x512x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v33 : BitVec 1 := Scalar.cmpi .eq arg2 c7_i32
  let v34 : BitVec 32 := Scalar.extui v33
  let c0_i32_18 : BitVec 32 := 0#32
  let v35 : BitVec 1 := Scalar.cmpi .ne v34 c0_i32_18
  v35

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S1024x1024_S1x1024x1024 : S1024x1024.ShapeCasts S1x1024x1024
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x4096.size a
  hwx0_1 : ∀ i : grid0.Coords, EltTy.bits .f32 = 32 ∨ (Rect.block (s := S8x1024x4096) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x4096x1024.size a
  hwx0_2 : ∀ i : grid0.Coords, EltTy.bits .f32 = 32 ∨ (Rect.block (s := S8x4096x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x2048x1024.size a
  hwx0_3 : ∀ i : grid0.Coords, EltTy.bits .f32 = 32 ∨ (Rect.block (s := S8x2048x1024) S1x1024x1024.size (cc0_transform_3 i) (hinb0_3 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x1024x4096 : Shape := ⟨3, ![8, 1024, 4096]⟩
abbrev S8x4096x1024 : Shape := ⟨3, ![8, 4096, 1024]⟩
abbrev S8x2048x4096 : Shape := ⟨3, ![8, 2048, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x4096x1024, .f32⟩
  | .hbm, ⟨3, _⟩ => ⟨S8x2048x4096, .f32⟩
  | .hbm, ⟨4, _⟩ => ⟨S_, .f32⟩
  | .hbm, ⟨5, _⟩ => ⟨S8x2048x4096, .f32⟩
  | .hbm, ⟨6, _⟩ => ⟨S8x2048x4096, .f32⟩
  | .hbm, ⟨7, _⟩ => ⟨S_, .f32⟩
  | .hbm, ⟨8, _⟩ => ⟨S8x2048x4096, .f32⟩
  | .hbm, ⟨9, _⟩ => ⟨S8x2048x4096, .f32⟩
  | .hbm, ⟨10, _⟩ => ⟨S8x2048x4096, .f32⟩
  | .hbm, ⟨11, _⟩ => ⟨S8x2048x4096, .f32⟩
  | .hbm, ⟨12, _⟩ => ⟨S8x2048x4096, .f32⟩
  | .hbm, ⟨13, _⟩ => ⟨S_, .f32⟩
  | .hbm, ⟨14, _⟩ => ⟨S8x2048x4096, .f32⟩
  | .hbm, ⟨15, _⟩ => ⟨S8x2048x4096, .f32⟩
  | .hbm, ⟨16, _⟩ => ⟨S8x2048x4096, .f32⟩
  | .hbm, ⟨17, _⟩ => ⟨S_, .f32⟩
  | .hbm, ⟨18, _⟩ => ⟨S8x2048x4096, .f32⟩
  | .hbm, ⟨19, _⟩ => ⟨S8x2048x4096, .f32⟩
  | .hbm, ⟨20, _⟩ => ⟨S8x2048x4096, .f32⟩
  | .hbm, ⟨21, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S8x2048x4096 : S_.BroadcastsInDim S8x2048x4096 (![] : Fin 0 → Fin S8x2048x4096.rank)
  dot_S8x2048x1024_S8x1024x4096_S8x2048x4096_2_1_1_2_0_0_wf : DotDims.WF S8x2048x1024 S8x1024x4096 S8x2048x4096 [2] [1] [1] [2] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x1024x4096_S8x2048x4096_2_1_1_2_0_0 : DotDims S8x2048x1024 S8x1024x4096 S8x2048x4096 where
  lhsContracting := [2]
  rhsContracting := [1]
  lhsNonContracting := [1]
  rhsNonContracting := [2]
  lhsBatch := [0]
  rhsBatch := [0]
  wf := dot_S8x2048x1024_S8x1024x4096_S8x2048x4096_2_1_1_2_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.Spec.lean ====
/-
  The mathematics of the two programs, with no program in sight.

  An expert feed-forward block over the extended reals: for expert e, token t and output feature q,
      out[e, t, q] = Σ_f gelu (Σ_k x[e, t, k] · w1[e, k, f]) · w2[e, f, q],
  gelu the tanh form (½·h)·(1 + tanh (c·(h + ((a·h)·h)·h))) with the four binary32 constants both programs print.
  The hidden axis f (4096 long) is cut into eight tiles of 512; the only law used is that a sum over the whole axis
  is the sum over the tiles of the sums inside each tile (re-indexing of a finite sum in a commutative monoid, so it
  holds at the infinities too and needs no finiteness of the inputs).
-/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

/-- The tanh form of GELU on the extended reals: `(½·h) · (1 + tanh (c · (h + ((a·h)·h)·h)))`, in exactly this
    grouping, the constants `½`, `1`, `c ≈ √(2/π)` and `a ≈ 0.044715` kept as their binary32 words. -/
def gelu (h : EReal) : EReal :=
  (Ideal.ofBits .f32 0x3F000000#32 * h)
    * (Ideal.ofBits .f32 0x3F800000#32
        + Ideal.tanh (Ideal.ofBits .f32 0x3F4C422A#32 * (h + Ideal.ofBits .f32 0x3D372713#32 * h * h * h)))

/-- The hidden pre-activation of expert `e`, token `t`, hidden unit `f`: row `t` of `x[e]` against column `f` of `w1[e]`. -/
def hid (x : (⟨3, ![8, 2048, 1024]⟩ : Shape).Idx → EReal) (w1 : (⟨3, ![8, 1024, 4096]⟩ : Shape).Idx → EReal)
    (e : Fin 8) (t : Fin 2048) (f : Fin 4096) : EReal :=
  ∑ k : Fin 1024, x (ix3 e t k) * w1 (ix3 e k f)

/-- Hidden unit `f`'s contribution to output feature `q` of token `t` of expert `e`. -/
def term (x : (⟨3, ![8, 2048, 1024]⟩ : Shape).Idx → EReal) (w1 : (⟨3, ![8, 1024, 4096]⟩ : Shape).Idx → EReal)
    (w2 : (⟨3, ![8, 4096, 1024]⟩ : Shape).Idx → EReal) (e : Fin 8) (t : Fin 2048) (q : Fin 1024) (f : Fin 4096) : EReal :=
  gelu (hid x w1 e t f) * w2 (ix3 e f q)

/-- The whole block: every output element is the sum of its 4096 hidden units' contributions. -/
def G (x : (⟨3, ![8, 2048, 1024]⟩ : Shape).Idx → EReal) (w1 : (⟨3, ![8, 1024, 4096]⟩ : Shape).Idx → EReal)
    (w2 : (⟨3, ![8, 4096, 1024]⟩ : Shape).Idx → EReal) : (⟨3, ![8, 2048, 1024]⟩ : Shape).Idx → EReal :=
  fun i => ∑ f : Fin 4096, term x w1 w2 (i 0) (i 1) (i 2) f

/-- Row `p` of token tile `ti` (two tiles of 1024 tokens). -/
def rowOf (ti : Fin 2) (p : Fin 1024) : Fin 2048 :=
  ⟨1024 * ti.val + p.val, by have := ti.isLt; have := p.isLt; omega⟩

/-- Hidden unit `j` of hidden tile `fi` (eight tiles of 512 hidden units). -/
def colOf (fi : Fin 8) (j : Fin 512) : Fin 4096 :=
  ⟨512 * fi.val + j.val, by have := fi.isLt; have := j.isLt; omega⟩

/-- What hidden tile `fi` adds to output element `(e, rowOf ti p, q)`. -/
def tile (x : (⟨3, ![8, 2048, 1024]⟩ : Shape).Idx → EReal) (w1 : (⟨3, ![8, 1024, 4096]⟩ : Shape).Idx → EReal)
    (w2 : (⟨3, ![8, 4096, 1024]⟩ : Shape).Idx → EReal) (e : Fin 8) (ti : Fin 2) (p q : Fin 1024) (fi : Fin 8) : EReal :=
  ∑ j : Fin 512, term x w1 w2 e (rowOf ti p) q (colOf fi j)

/-- A sum over the 4096 hidden units is the sum over the eight tiles of the sums inside each tile. -/
theorem sum_tiles (a : Fin 4096 → EReal) : ∑ f, a f = ∑ fi : Fin 8, ∑ j : Fin 512, a (colOf fi j) := by
  rw [← Equiv.sum_comp (finProdFinEquiv : Fin 8 × Fin 512 ≃ Fin 4096) a, Fintype.sum_prod_type]
  refine Finset.sum_congr rfl fun fi _ => Finset.sum_congr rfl fun j _ => congrArg a (Fin.ext ?_)
  show j.val + 512 * fi.val = 512 * fi.val + j.val
  omega

/-- So an output element is the sum of its eight tiles' contributions. -/
theorem G_tiles (x : (⟨3, ![8, 2048, 1024]⟩ : Shape).Idx → EReal) (w1 : (⟨3, ![8, 1024, 4096]⟩ : Shape).Idx → EReal)
    (w2 : (⟨3, ![8, 4096, 1024]⟩ : Shape).Idx → EReal) (e : Fin 8) (ti : Fin 2) (p q : Fin 1024) :
    G x w1 w2 (ix3 e (rowOf ti p) q) = ∑ fi : Fin 8, tile x w1 w2 e ti p q fi := by
  show ∑ f : Fin 4096, term x w1 w2 e (rowOf ti p) q f = _
  exact sum_tiles _

end Cert.Spec

end
-- ==== Proof.RefIsG.lean ====
/-
  The reference, read element by element: its result at (e, t, q) is the sum over the 4096 hidden units f of
  gelu (Σ_k x[e, t, k] · w1[e, k, f]) · w2[e, f, q] — the specification's `G`.
-/
import proofs.«150859_j21741124452873_1_alg».proof.Proof.Gen.ReferenceIdeal.Read
import proofs.«150859_j21741124452873_1_alg».proof.Proof.Spec

noncomputable section

open scoped BigOperators

namespace Cert.RefValue

open Cert.ReferenceIdeal Cert.ReferenceIdeal.Read Idealize.ShloMosaic Idealize.ShloMosaic.ValueIdx

/-- The first contraction's operand indices at output index (e, t, f) and contraction index k are (e, t, k) and (e, k, f). -/
theorem lidx0 (e : Fin 8) (t : Fin 2048) (f : Fin 4096) (k : Fin 1024) : lidx_main_v0 (ix3 e t f) k = ix3 e t k :=
  funext fun a => by match a with | ⟨0, _⟩ => rfl | ⟨1, _⟩ => rfl | ⟨2, _⟩ => rfl
theorem ridx0 (e : Fin 8) (t : Fin 2048) (f : Fin 4096) (k : Fin 1024) : ridx_main_v0 (ix3 e t f) k = ix3 e k f :=
  funext fun a => by match a with | ⟨0, _⟩ => rfl | ⟨1, _⟩ => rfl | ⟨2, _⟩ => rfl
/-- The second contraction's, at output index (e, t, q) and hidden unit f: (e, t, f) and (e, f, q). -/
theorem lidx14 (e : Fin 8) (t : Fin 2048) (q : Fin 1024) (f : Fin 4096) : lidx_main_v14 (ix3 e t q) f = ix3 e t f :=
  funext fun a => by match a with | ⟨0, _⟩ => rfl | ⟨1, _⟩ => rfl | ⟨2, _⟩ => rfl
theorem ridx14 (e : Fin 8) (t : Fin 2048) (q : Fin 1024) (f : Fin 4096) : ridx_main_v14 (ix3 e t q) f = ix3 e f q :=
  funext fun a => by match a with | ⟨0, _⟩ => rfl | ⟨1, _⟩ => rfl | ⟨2, _⟩ => rfl

/-- The activated hidden layer at (e, t, f) is gelu of the pre-activation there. -/
theorem hidden_apply (x0 : (⟨S8x2048x1024, .f32⟩ : BufTy).Contents (Elt Ideal)) (x1 : (⟨S8x1024x4096, .f32⟩ : BufTy).Contents (Elt Ideal))
    (e : Fin 8) (t : Fin 2048) (f : Fin 4096) :
    val_main_v13 (F := Ideal) x0 x1 (ix3 e t f) = Cert.Spec.gelu (Cert.Spec.hid x0 x1 e t f) := by
  have h0 : val_main_v0 (F := Ideal) x0 x1 (ix3 e t f) = Cert.Spec.hid x0 x1 e t f := by
    rw [val_main_v0_apply]
    exact Finset.sum_congr rfl fun k _ => by rw [lidx0, ridx0]
  rw [val_main_v13_apply, val_main_v2_apply, val_main_v12_apply, val_main_v1_apply, val_main_cst_apply,
    val_main_v11_apply, val_main_cst_2_apply, val_main_v10_apply, val_main_v9_apply, val_main_v8_apply,
    val_main_cst_1_apply, val_main_v7_apply, val_main_v6_apply, val_main_v5_apply, val_main_v4_apply,
    val_main_v3_apply, val_main_cst_0_apply, h0]
  rfl

/-- The reference's result is `G` of its three arguments. -/
theorem ref_eq (x0 : (⟨S8x2048x1024, .f32⟩ : BufTy).Contents (Elt Ideal)) (x1 : (⟨S8x1024x4096, .f32⟩ : BufTy).Contents (Elt Ideal))
    (x2 : (⟨S8x4096x1024, .f32⟩ : BufTy).Contents (Elt Ideal)) :
    val_main_v14 (F := Ideal) x0 x1 x2 = Cert.Spec.G x0 x1 x2 := by
  funext i
  obtain ⟨e, t, q, rfl⟩ : ∃ (e : Fin 8) (t : Fin 2048) (q : Fin 1024), i = ix3 e t q := ⟨i 0, i 1, i 2, eq_ix3 i⟩
  rw [val_main_v14_apply]
  show _ = ∑ f : Fin 4096, Cert.Spec.term x0 x1 x2 e t q f
  refine Finset.sum_congr rfl fun f _ => ?_
  rw [lidx14, ridx14, hidden_apply]
  rfl

end Cert.RefValue

end
-- ==== Proof.Payload.lean ====
/-
  The kernel body's arithmetic at one grid point, read at one element of the accumulator.

  With x the point's token block [1, 1024, 1024], w1 its [1, 1024, 512] slab of the first weights, w2 its [1, 512, 1024]
  slab of the second and acc what the accumulator held, the body leaves at (p, q)
      acc[p, q] + Σ_{j < 512} gelu (Σ_{k < 1024} x[0, p, k] · w1[0, k, j]) · w2[0, j, q]:
  both matrix products start from the zero block, so each is a plain sum of products over its one contracted axis,
  the narrowing to bf16 is the identity on extended reals, and the activation acts element by element.
-/
import proofs.«150859_j21741124452873_1_alg».proof.Proof.Gen.KernelIdeal.Skeleton
import proofs.«150859_j21741124452873_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelValue

open Cert.KernelIdeal Cert.KernelIdeal.Gen Idealize.ShloMosaic Idealize.ShloMosaic.ValueIdx

variable {F : FTy → Type} [FloatOps F]

/-- The hidden pre-activations of the point's tile: the token block times the first weights' slab, from zero. -/
def hidVec (x0 : Vec F S1x1024x1024 .f32) (x1 : Vec F S1x1024x512 .f32) : FVec F S1024x512 .f32 :=
  matmul dot_S1024x1024_S1024x512_S1024x512_1_0_0_1_n_n none
    (truncf .bf16 (shapeCast S1024x1024 x0 shapeCasts_S1x1024x1024_S1024x1024) bitsLt_bf16_f32)
    (truncf .bf16 (shapeCast S1024x512 x1 shapeCasts_S1x1024x512_S1024x512) bitsLt_bf16_f32)
    (constant S1024x512 .f32 0x00000000#32)

/-- The activation, element by element, in the body's own grouping. -/
def geluVec (h : FVec F S1024x512 .f32) : FVec F S1024x512 .f32 :=
  mulf (mulf (broadcast S1024x512 (Scalar.ofBits .f32 0x3F000000#32)) h)
    (addf (broadcast S1024x512 (Scalar.ofBits .f32 0x3F800000#32))
      (tanh (mulf (broadcast S1024x512 (Scalar.ofBits .f32 0x3F4C422A#32))
        (addf h (mulf (mulf (mulf (broadcast S1024x512 (Scalar.ofBits .f32 0x3D372713#32)) h) h) h)))))

/-- The body's store into the accumulator is the old accumulator plus the activated tile times the second weights' slab. -/
theorem pay3_eq (x0 : Vec F S1x1024x1024 .f32) (x1 : Vec F S1x1024x512 .f32) (x2 : Vec F S1x512x1024 .f32)
    (acc : Vec F S1024x1024 .f32) :
    k0_pay3 x0 x1 x2 acc
      = addf acc (matmul dot_S1024x512_S512x1024_S1024x1024_1_0_0_1_n_n none
          (truncf .bf16 (geluVec (hidVec x0 x1)) bitsLt_bf16_f32)
          (truncf .bf16 (shapeCast S512x1024 x2 shapeCasts_S1x512x1024_S512x1024) bitsLt_bf16_f32)
          (constant S1024x1024 .f32 0x00000000#32)) := by
  unfold k0_pay3 geluVec hidVec
  dsimp only
  exact shapeCast_self _ _

/-- At the ideal values the activation vector reads, at every index, the scalar `gelu` of the operand there. -/
theorem geluVec_apply (h : FVec Ideal S1024x512 .f32) (i : S1024x512.Idx) :
    geluVec (F := Ideal) h i = Cert.Spec.gelu (h i) := rfl

/-! ### The two matrix products' operand indices -/

theorem lhs1_0 (i : S1024x512.Idx) (c : dot_S1024x1024_S1024x512_S1024x512_1_0_0_1_n_n.contr.Idx) : (dot_S1024x1024_S1024x512_S1024x512_1_0_0_1_n_n.lhsIdx i c 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl
theorem lhs1_1 (i : S1024x512.Idx) (c : dot_S1024x1024_S1024x512_S1024x512_1_0_0_1_n_n.contr.Idx) : (dot_S1024x1024_S1024x512_S1024x512_1_0_0_1_n_n.lhsIdx i c 1).val = (c ⟨0, by decide⟩).val :=
  dot_S1024x1024_S1024x512_S1024x512_1_0_0_1_n_n.lhsIdx_val_of_single rfl i c
theorem rhs1_0 (i : S1024x512.Idx) (c : dot_S1024x1024_S1024x512_S1024x512_1_0_0_1_n_n.contr.Idx) : (dot_S1024x1024_S1024x512_S1024x512_1_0_0_1_n_n.rhsIdx i c 0).val = (c ⟨0, by decide⟩).val :=
  dot_S1024x1024_S1024x512_S1024x512_1_0_0_1_n_n.rhsIdx_val_of_single rfl i c
theorem rhs1_1 (i : S1024x512.Idx) (c : dot_S1024x1024_S1024x512_S1024x512_1_0_0_1_n_n.contr.Idx) : (dot_S1024x1024_S1024x512_S1024x512_1_0_0_1_n_n.rhsIdx i c 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

theorem lhs2_0 (i : S1024x1024.Idx) (c : dot_S1024x512_S512x1024_S1024x1024_1_0_0_1_n_n.contr.Idx) : (dot_S1024x512_S512x1024_S1024x1024_1_0_0_1_n_n.lhsIdx i c 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem lhs2_1 (i : S1024x1024.Idx) (c : dot_S1024x512_S512x1024_S1024x1024_1_0_0_1_n_n.contr.Idx) : (dot_S1024x512_S512x1024_S1024x1024_1_0_0_1_n_n.lhsIdx i c 1).val = (c ⟨0, by decide⟩).val :=
  dot_S1024x512_S512x1024_S1024x1024_1_0_0_1_n_n.lhsIdx_val_of_single rfl i c
theorem rhs2_0 (i : S1024x1024.Idx) (c : dot_S1024x512_S512x1024_S1024x1024_1_0_0_1_n_n.contr.Idx) : (dot_S1024x512_S512x1024_S1024x1024_1_0_0_1_n_n.rhsIdx i c 0).val = (c ⟨0, by decide⟩).val :=
  dot_S1024x512_S512x1024_S1024x1024_1_0_0_1_n_n.rhsIdx_val_of_single rfl i c
theorem rhs2_1 (i : S1024x1024.Idx) (c : dot_S1024x512_S512x1024_S1024x1024_1_0_0_1_n_n.contr.Idx) : (dot_S1024x512_S512x1024_S1024x1024_1_0_0_1_n_n.rhsIdx i c 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The pre-activation of token row `p` and hidden unit `j` of the tile: row `p` of the block against column `j` of the slab. -/
theorem hidVec_apply (x0 : Vec Ideal S1x1024x1024 .f32) (x1 : Vec Ideal S1x1024x512 .f32) (p : Fin 1024) (j : Fin 512) :
    hidVec (F := Ideal) x0 x1 (ix2 p j) = ∑ k : Fin 1024, x0 (ix3 (0 : Fin 1) p k) * x1 (ix3 (0 : Fin 1) k j) := by
  unfold hidVec
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p j) ((contrEquiv1 dot_S1024x1024_S1024x512_S1024x512_1_0_0_1_n_n 1024 rfl rfl).symm k) = ix2 p k := funext fun a => Fin.ext (by
    match a with
    | ⟨0, _⟩ => exact lhs1_0 _ _
    | ⟨1, _⟩ => exact (lhs1_1 _ _).trans hk)
  have er : dot_S1024x1024_S1024x512_S1024x512_1_0_0_1_n_n.rhsIdx (ix2 p j) ((contrEquiv1 dot_S1024x1024_S1024x512_S1024x512_1_0_0_1_n_n 1024 rfl rfl).symm k) = ix2 k j := funext fun a => Fin.ext (by
    match a with
    | ⟨0, _⟩ => exact (rhs1_0 _ _).trans hk
    | ⟨1, _⟩ => exact rhs1_1 _ _)
  rw [el, er, truncf_apply, truncf_apply, shapeCast_1ab_ab_apply, shapeCast_1ab_ab_apply]

/-- The body's store into the accumulator, read at `(p, q)`. -/
theorem pay3_apply (x0 : Vec Ideal S1x1024x1024 .f32) (x1 : Vec Ideal S1x1024x512 .f32) (x2 : Vec Ideal S1x512x1024 .f32)
    (acc : Vec Ideal S1024x1024 .f32) (p q : Fin 1024) :
    k0_pay3 (F := Ideal) x0 x1 x2 acc (ix2 p q)
      = acc (ix2 p q) + ∑ j : Fin 512,
          Cert.Spec.gelu (∑ k : Fin 1024, x0 (ix3 (0 : Fin 1) p k) * x1 (ix3 (0 : Fin 1) k j)) * x2 (ix3 (0 : Fin 1) j q) := by
  rw [pay3_eq]
  refine (addf_apply _ _ _).trans (congrArg (acc (ix2 p q) + ·) ?_)
  simp only [matmul]
  rw [Ideal.matmul_constant_zero_apply, ← Equiv.sum_comp (contrEquiv1 dot_S1024x512_S512x1024_S1024x1024_1_0_0_1_n_n 512 rfl rfl).symm]
  refine Finset.sum_congr rfl fun j _ => ?_
  have hj := contrEquiv1_symm_val dot_S1024x512_S512x1024_S1024x1024_1_0_0_1_n_n 512 rfl rfl j
  have el : dot_S1024x512_S512x1024_S1024x1024_1_0_0_1_n_n.lhsIdx (ix2 p q) ((contrEquiv1 dot_S1024x512_S512x1024_S1024x1024_1_0_0_1_n_n 512 rfl rfl).symm j) = ix2 p j := funext fun a => Fin.ext (by
    match a with
    | ⟨0, _⟩ => exact lhs2_0 _ _
    | ⟨1, _⟩ => exact (lhs2_1 _ _).trans hj)
  have er : dot_S1024x512_S512x1024_S1024x1024_1_0_0_1_n_n.rhsIdx (ix2 p q) ((contrEquiv1 dot_S1024x512_S512x1024_S1024x1024_1_0_0_1_n_n 512 rfl rfl).symm j) = ix2 j q := funext fun a => Fin.ext (by
    match a with
    | ⟨0, _⟩ => exact (rhs2_0 _ _).trans hj
    | ⟨1, _⟩ => exact rhs2_1 _ _)
  rw [el, er, truncf_apply, truncf_apply, shapeCast_1ab_ab_apply, geluVec_apply, hidVec_apply]

end Cert.KernelValue

end
-- ==== Proof.Pieces.lean ====
/-
  What one run of the kernel body leaves behind, in each of its three control cases, as values.

  The first point of a run over the hidden tiles (hidden tile 0) stores the zero block into the accumulator and then
  adds the tile's contribution to it; every later point adds its tile's contribution to what the point before left;
  the last point (hidden tile 7) also copies the accumulator, after its update, into the output block. In each case
  the store covers the whole buffer and every load reads a whole buffer, so what is left is the store's value.
-/
import proofs.«150859_j21741124452873_1_alg».proof.Proof.Gen.KernelIdeal.Frame
import Idealize.ShloMosaic.Lib.Pipeline.Value
import Idealize.ShloMosaic.Lib.Tactic

noncomputable section

namespace Cert.KernelValue

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point of a run: the accumulator ends at the update of the zero block. -/
theorem sout_A (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x512x1024 .f32) (harg5 : arg5.IsWhole) (arg6 : Memref sig .tc .vmem S1x1024x1024 .f32) (harg6 : arg6.IsWhole) (arg7 : Memref sig .tc .vmem S1024x1024 .f32) (harg7 : arg7.IsWhole) (hc0 : cond0_0 i) (hc1 : ¬cond0_1 i)
    (x0 : Vec F S1x1024x1024 .f32) (x1 : Vec F S1x1024x512 .f32) (x2 : Vec F S1x512x1024 .f32) :
    sout0_A_0 c i arg3 harg3 arg4 harg4 arg5 harg5 arg6 harg6 arg7 harg7 hc0 hc1 x0 x1 x2 = k0_pay3 x0 x1 x2 (k0_pay2 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz2, View.readCov_unit_zero (S := S1024x1024) _ hz2]
  simp only [View.readAt_eq_ld, harg3.read_unread, harg4.read_unread, harg5.read_unread, harg7.read_unread, View.ld_unit_zero (S := S1x1024x1024) hz3, View.ld_unit_zero (S := S1x1024x512) hz3, View.ld_unit_zero (S := S1x512x1024) hz3, View.ld_unit_zero (S := S1024x1024) hz2]

/-- A middle point: the accumulator ends at the update of what the point before left. -/
theorem sout_B (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x512x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : ¬cond0_1 i)
    (x0 : Vec F S1x1024x1024 .f32) (x1 : Vec F S1x1024x512 .f32) (x2 : Vec F S1x512x1024 .f32) (xs0 : Vec F S1024x1024 .f32) :
    sout0_B_0 c i arg3 harg3 arg4 harg4 arg5 harg5 arg6 harg6 arg7 harg7 hc0 hc1 x0 x1 x2 xs0 = k0_pay3 x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz2]
  simp only [View.readAt_eq_ld, harg3.read_unread, harg4.read_unread, harg5.read_unread, harg7.read_unread, View.ld_unit_zero (S := S1x1024x1024) hz3, View.ld_unit_zero (S := S1x1024x512) hz3, View.ld_unit_zero (S := S1x512x1024) hz3, View.ld_unit_zero (S := S1024x1024) hz2]

/-- The last point of a run: the accumulator ends at the update of what the point before left, -/
theorem sout_C (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x512x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : cond0_1 i)
    (x0 : Vec F S1x1024x1024 .f32) (x1 : Vec F S1x1024x512 .f32) (x2 : Vec F S1x512x1024 .f32) (xs0 : Vec F S1024x1024 .f32) :
    sout0_C_0 c i arg3 harg3 arg4 harg4 arg5 harg5 arg6 harg6 arg7 harg7 hc0 hc1 x0 x1 x2 xs0 = k0_pay3 x0 x1 x2 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg3.read_unread, harg4.read_unread, harg5.read_unread, harg7.read_unread, View.ld_unit_zero (S := S1x1024x1024) hz3, View.ld_unit_zero (S := S1x1024x512) hz3, View.ld_unit_zero (S := S1x512x1024) hz3, View.ld_unit_zero (S := S1024x1024) hz2]

/-- and the output block at that accumulator, with a leading unit axis. -/
theorem out_C (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x512x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : cond0_1 i)
    (x0 : Vec F S1x1024x1024 .f32) (x1 : Vec F S1x1024x512 .f32) (x2 : Vec F S1x512x1024 .f32) (xs0 : Vec F S1024x1024 .f32) :
    out0_C_3 c i arg3 harg3 arg4 harg4 arg5 harg5 arg6 harg6 arg7 harg7 hc0 hc1 x0 x1 x2 xs0 = k0_pay1 (k0_pay3 x0 x1 x2 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz3]
  simp only [View.readCov_unit_zero (S := S1024x1024) _ hz2, View.readAt_eq_ld, harg3.read_unread, harg4.read_unread, harg5.read_unread, harg7.read_unread, View.ld_unit_zero (S := S1x1024x1024) hz3, View.ld_unit_zero (S := S1x1024x512) hz3, View.ld_unit_zero (S := S1x512x1024) hz3, View.ld_unit_zero (S := S1024x1024) hz2]

end Cert.KernelValue

end
-- ==== Proof.KernelFold.lean ====
/-
  The accumulator across a run of grid points, at the ideal values.

  The grid's 128 points are numbered n = 16·e + 8·ti + fi: expert e, token tile ti, hidden tile fi, the hidden tile
  moving fastest. At point n the three input blocks are rows 1024·ti … of x[e], columns 512·fi … of w1[e] and rows
  512·fi … of w2[e]; so the body adds to accumulator element (p, q) exactly hidden tile fi's contribution to output
  element (e, 1024·ti + p, q). A run of eight points (fi = 0 … 7) starts from the zero block, so after its point fi the
  accumulator holds the sum of the contributions of hidden tiles 0 … fi.
-/
import proofs.«150859_j21741124452873_1_alg».proof.Proof.Gen.KernelIdeal.Value
import proofs.«150859_j21741124452873_1_alg».proof.Proof.Payload
import proofs.«150859_j21741124452873_1_alg».proof.Proof.Pieces
import Idealize.ShloMosaic.Lib.Pipeline.Value

noncomputable section

open scoped BigOperators

namespace Cert.KernelValue

open Cert.KernelIdeal Cert.KernelIdeal.Gen Cert.KernelIdeal.Value Idealize.ShloMosaic Idealize.ShloMosaic.TcCoe
  Idealize.SL.Sem Idealize.ShloMosaic.ValueIdx
open Idealize.ShloMosaic.Pipeline (Dat)

variable (m : (ℓ : Loc nD τ sig) → Buf (Elt Ideal) ℓ)

/-- Point `n`'s expert, token tile and hidden tile. -/
def eOf (n : ℕ) : Fin 8 := ⟨(n / 16) % 8, Nat.mod_lt _ (by decide)⟩
def tiOf (n : ℕ) : Fin 2 := ⟨(n / 8) % 2, Nat.mod_lt _ (by decide)⟩
def fiOf (n : ℕ) : Fin 8 := ⟨n % 8, Nat.mod_lt _ (by decide)⟩

/-- The four windows' block indices at every point, decided over the grid. -/
theorem idx_facts : ∀ t : Fin cfg0.N,
    win0_0.index t (0 : Fin 3) = (t.val / 16) % 8 ∧ win0_0.index t (1 : Fin 3) = (t.val / 8) % 2 ∧ win0_0.index t (2 : Fin 3) = 0
    ∧ win0_1.index t (0 : Fin 3) = (t.val / 16) % 8 ∧ win0_1.index t (1 : Fin 3) = 0 ∧ win0_1.index t (2 : Fin 3) = t.val % 8
    ∧ win0_2.index t (0 : Fin 3) = (t.val / 16) % 8 ∧ win0_2.index t (1 : Fin 3) = t.val % 8 ∧ win0_2.index t (2 : Fin 3) = 0
    ∧ win0_3.index t (0 : Fin 3) = (t.val / 16) % 8 ∧ win0_3.index t (1 : Fin 3) = (t.val / 8) % 2 ∧ win0_3.index t (2 : Fin 3) = 0 :=
  (by decide +kernel : ∀ t : Fin grid0.N, _)

/-- The three argument arrays as the region finds them, and the three input blocks of a point, at their literal types. -/
abbrev X (c : Dev nD) : (⟨3, ![8, 2048, 1024]⟩ : Shape).Idx → EReal := V m c main_arg0
abbrev W1 (c : Dev nD) : (⟨3, ![8, 1024, 4096]⟩ : Shape).Idx → EReal := V m c main_arg1
abbrev W2 (c : Dev nD) : (⟨3, ![8, 4096, 1024]⟩ : Shape).Idx → EReal := V m c main_arg2
abbrev xblk (c : Dev nD) (t : Fin cfg0.N) : Vec Ideal S1x1024x1024 .f32 := iblk m c 0 t
abbrev w1blk (c : Dev nD) (t : Fin cfg0.N) : Vec Ideal S1x1024x512 .f32 := iblk m c 1 t
abbrev w2blk (c : Dev nD) (t : Fin cfg0.N) : Vec Ideal S1x512x1024 .f32 := iblk m c 2 t

/-- The token block at a point: rows `1024·ti + p` of expert `e`'s tokens. -/
theorem xblk_apply (c : Dev nD) (t : Fin cfg0.N) (u : Fin 1) (p k : Fin 1024) :
    xblk m c t (ix3 u p k) = X m c (ix3 (eOf t.val) (Cert.Spec.rowOf (tiOf t.val) p) k) := by
  obtain ⟨e0, e1, e2, -⟩ := idx_facts t
  have hu : u.val = 0 := by omega
  unfold xblk iblk
  rw [View.read_apply]
  show V m c main_arg0 _ = V m c main_arg0 _
  congr 1
  funext a
  apply Fin.ext
  match a with
  | ⟨0, _⟩ => show win0_0.index t (0 : Fin 3) * 1 + 1 * u.val = (t.val / 16) % 8; omega
  | ⟨1, _⟩ => show win0_0.index t (1 : Fin 3) * 1024 + 1 * p.val = 1024 * ((t.val / 8) % 2) + p.val; omega
  | ⟨2, _⟩ => show win0_0.index t (2 : Fin 3) * 1024 + 1 * k.val = k.val; omega

/-- The first weights' slab at a point: columns `512·fi + j` of expert `e`'s first matrix. -/
theorem w1blk_apply (c : Dev nD) (t : Fin cfg0.N) (u : Fin 1) (k : Fin 1024) (j : Fin 512) :
    w1blk m c t (ix3 u k j) = W1 m c (ix3 (eOf t.val) k (Cert.Spec.colOf (fiOf t.val) j)) := by
  obtain ⟨-, -, -, e0, e1, e2, -⟩ := idx_facts t
  have hu : u.val = 0 := by omega
  unfold w1blk iblk
  rw [View.read_apply]
  show V m c main_arg1 _ = V m c main_arg1 _
  congr 1
  funext a
  apply Fin.ext
  match a with
  | ⟨0, _⟩ => show win0_1.index t (0 : Fin 3) * 1 + 1 * u.val = (t.val / 16) % 8; omega
  | ⟨1, _⟩ => show win0_1.index t (1 : Fin 3) * 1024 + 1 * k.val = k.val; omega
  | ⟨2, _⟩ => show win0_1.index t (2 : Fin 3) * 512 + 1 * j.val = 512 * (t.val % 8) + j.val; omega

/-- The second weights' slab at a point: rows `512·fi + j` of expert `e`'s second matrix. -/
theorem w2blk_apply (c : Dev nD) (t : Fin cfg0.N) (u : Fin 1) (j : Fin 512) (q : Fin 1024) :
    w2blk m c t (ix3 u j q) = W2 m c (ix3 (eOf t.val) (Cert.Spec.colOf (fiOf t.val) j) q) := by
  obtain ⟨-, -, -, -, -, -, e0, e1, e2, -⟩ := idx_facts t
  have hu : u.val = 0 := by omega
  unfold w2blk iblk
  rw [View.read_apply]
  show V m c main_arg2 _ = V m c main_arg2 _
  congr 1
  funext a
  apply Fin.ext
  match a with
  | ⟨0, _⟩ => show win0_2.index t (0 : Fin 3) * 1 + 1 * u.val = (t.val / 16) % 8; omega
  | ⟨1, _⟩ => show win0_2.index t (1 : Fin 3) * 512 + 1 * j.val = 512 * (t.val % 8) + j.val; omega
  | ⟨2, _⟩ => show win0_2.index t (2 : Fin 3) * 1024 + 1 * q.val = q.val; omega

/-- ONE POINT'S STEP: the body's update of an accumulator `acc` at point `t` adds, at `(p, q)`, the contribution of the
    point's hidden tile to output element `(e, 1024·ti + p, q)`. -/
theorem step_apply (c : Dev nD) (t : Fin cfg0.N) (acc : Vec Ideal S1024x1024 .f32) (p q : Fin 1024) :
    k0_pay3 (F := Ideal) (xblk m c t) (w1blk m c t) (w2blk m c t) acc (ix2 p q)
      = acc (ix2 p q) + Cert.Spec.tile (X m c) (W1 m c) (W2 m c) (eOf t.val) (tiOf t.val) p q (fiOf t.val) := by
  refine (pay3_apply (xblk m c t) (w1blk m c t) (w2blk m c t) acc p q).trans (congrArg (acc (ix2 p q) + ·) ?_)
  unfold Cert.Spec.tile Cert.Spec.term Cert.Spec.hid
  refine Finset.sum_congr rfl fun j _ => ?_
  have hh : (∑ k : Fin 1024, xblk m c t (ix3 (0 : Fin 1) p k) * w1blk m c t (ix3 (0 : Fin 1) k j))
      = ∑ k : Fin 1024, X m c (ix3 (eOf t.val) (Cert.Spec.rowOf (tiOf t.val) p) k)
          * W1 m c (ix3 (eOf t.val) k (Cert.Spec.colOf (fiOf t.val) j)) :=
    Finset.sum_congr rfl fun k _ => by rw [xblk_apply m c t 0 p k, w1blk_apply m c t 0 k j]
  rw [hh, w2blk_apply m c t 0 j q]

/-- The zero block the first point of a run stores. -/
theorem pay2_apply (i : S1024x1024.Idx) : k0_pay2 (F := Ideal) i = 0 := by
  unfold k0_pay2
  rw [shapeCast_self]
  exact Ideal.ofBits_zero_f32

/-- What a point leaves in the accumulator over what the point before left, case by case, is the body's update at the
    point's blocks: of the zero block at the first point of a run, -/
theorem scAt_A (c : Dev nD) (n : ℕ) (hb : n < cfg0.N) (h0 : n % 8 = 0) (h1 : ¬n % 8 = 7) (acc : Vec Ideal S1024x1024 .f32) :
    scAt0_0 m c n hb acc = k0_pay3 (F := Ideal) (xblk m c ⟨n, hb⟩) (w1blk m c ⟨n, hb⟩) (w2blk m c ⟨n, hb⟩) (k0_pay2 (F := Ideal)) := by
  unfold scAt0_0
  rw [dif_pos h0, dif_neg h1]
  exact sout_A c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) _ _ (iblk m c 0 ⟨n, hb⟩) (iblk m c 1 ⟨n, hb⟩) (iblk m c 2 ⟨n, hb⟩)

/-- of what the point before left at a middle point, -/
theorem scAt_B (c : Dev nD) (n : ℕ) (hb : n < cfg0.N) (h0 : ¬n % 8 = 0) (h1 : ¬n % 8 = 7) (acc : Vec Ideal S1024x1024 .f32) :
    scAt0_0 m c n hb acc = k0_pay3 (F := Ideal) (xblk m c ⟨n, hb⟩) (w1blk m c ⟨n, hb⟩) (w2blk m c ⟨n, hb⟩) acc := by
  unfold scAt0_0
  rw [dif_neg h0, dif_neg h1]
  exact sout_B c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) _ _ (iblk m c 0 ⟨n, hb⟩) (iblk m c 1 ⟨n, hb⟩) (iblk m c 2 ⟨n, hb⟩) acc

/-- and at the last point of a run. -/
theorem scAt_C (c : Dev nD) (n : ℕ) (hb : n < cfg0.N) (h0 : ¬n % 8 = 0) (h1 : n % 8 = 7) (acc : Vec Ideal S1024x1024 .f32) :
    scAt0_0 m c n hb acc = k0_pay3 (F := Ideal) (xblk m c ⟨n, hb⟩) (w1blk m c ⟨n, hb⟩) (w2blk m c ⟨n, hb⟩) acc := by
  unfold scAt0_0
  rw [dif_neg h0, dif_pos h1]
  exact sout_C c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) _ _ (iblk m c 0 ⟨n, hb⟩) (iblk m c 1 ⟨n, hb⟩) (iblk m c 2 ⟨n, hb⟩) acc

/-- What point `n` adds to the accumulator, as a block. -/
def addend (c : Dev nD) (n : ℕ) (i : S1024x1024.Idx) : EReal :=
  Cert.Spec.tile (X m c) (W1 m c) (W2 m c) (eOf n) (tiOf n) (i 0) (i 1) (fiOf n)

/-- THE ACCUMULATOR after point `t`: the sum of what the points of its run added, from the run's first point up to `t`. -/
theorem scratch_apply (c : Dev nD) (t : Fin cfg0.N) (i : S1024x1024.Idx) :
    (outsAt0 m c t.val t.isLt).2 i = ∑ s ∈ Finset.range (t.val % 8 + 1), addend m c (8 * (t.val / 8) + s) i := by
  have hN : cfg0.N = 128 := N_0
  have ht := t.isLt
  rw [soutsAt0_0_eq m c t]
  refine (Pipeline.accAt_add_apply (N := cfg0.N)
    (fun n h => scAt0_0 m c n h (VS0_0.read (Elt Ideal) VS0_0.junk)) (scAt0_0 m c) (fun _ => (0 : EReal)) (addend m c)
    (8 * (t.val / 8)) 7 ?_ ?_ (t.val % 8) (by omega) _ i).trans (zero_add _)
  · intro h i
    obtain ⟨p, q, rfl⟩ : ∃ (p q : Fin 1024), i = ix2 p q := ⟨i 0, i 1, eq_ix2 i⟩
    show scAt0_0 m c (8 * (t.val / 8)) h _ (ix2 p q) = _
    rw [scAt_A m c _ h (by omega) (by omega)]
    refine (step_apply m c ⟨8 * (t.val / 8), h⟩ (k0_pay2 (F := Ideal)) p q).trans ?_
    rw [pay2_apply]
    rfl
  · intro n h acc i hlo hhi
    obtain ⟨p, q, rfl⟩ : ∃ (p q : Fin 1024), i = ix2 p q := ⟨i 0, i 1, eq_ix2 i⟩
    have h0 : ¬n % 8 = 0 := by omega
    by_cases h1 : n % 8 = 7
    · rw [scAt_C m c n h h0 h1]
      exact step_apply m c ⟨n, h⟩ acc p q
    · rw [scAt_B m c n h h0 h1]
      exact step_apply m c ⟨n, h⟩ acc p q

end Cert.KernelValue

end
-- ==== Proof.KernelFinal.lean ====
/-
  The kernel's result array, at the ideal values: every element is the specification's `G` of the three arguments.

  The output block of expert e and token tile ti is written back once, at the last point of the run over the hidden
  tiles (hidden tile 7), and holds the accumulator there: the sum of all eight hidden tiles' contributions, which is
  the sum over all 4096 hidden units. The sixteen blocks (8 experts × 2 token tiles) tile the array.
-/
import proofs.«150859_j21741124452873_1_alg».proof.Proof.KernelFold

noncomputable section

open scoped BigOperators

namespace Cert.KernelValue

open Cert.KernelIdeal Cert.KernelIdeal.Gen Cert.KernelIdeal.Value Idealize.ShloMosaic Idealize.ShloMosaic.TcCoe
  Idealize.SL.Sem Idealize.ShloMosaic.ValueIdx
open Idealize.ShloMosaic.Pipeline (Dat)

variable (m : (ℓ : Loc nD τ sig) → Buf (Elt Ideal) ℓ) (ρ : Dev nD → PrngReg)

/-- The copy into the output block only adds a leading unit axis. -/
theorem pay1_apply (v : Vec Ideal S1024x1024 .f32) (u : Fin 1) (p q : Fin 1024) :
    k0_pay1 (F := Ideal) v (ix3 u p q) = v (ix2 p q) := by
  unfold k0_pay1
  exact shapeCast_ab_1ab_apply _ _ u p q

/-- At the last point of a run the output block is the accumulator the point leaves, with a leading unit axis. -/
theorem outC_eq (c : Dev nD) (t : Fin cfg0.N) (h0 : ¬t.val % 8 = 0) (h1 : t.val % 8 = 7) :
    (outsAt0 m c t.val t.isLt).1 = k0_pay1 (F := Ideal) (outsAt0 m c t.val t.isLt).2 := by
  rw [outsAt0_C m c t h0 h1]
  dsimp only
  exact (out_C c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).trans
    (congrArg (k0_pay1 (F := Ideal)) (sout_C c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).symm)

/-- Element `(u, p, q)` of the output block at point `t` is element `(e, 1024·ti + p, q)` of the array. -/
theorem emb3 (t : Fin cfg0.N) (u : Fin 1) (p q : Fin 1024) :
    ((cfg0.win 3).blk t).view.emb (ix3 u p q) = ix3 (eOf t.val) (Cert.Spec.rowOf (tiOf t.val) p) q := by
  obtain ⟨-, -, -, -, -, -, -, -, -, e0, e1, e2⟩ := idx_facts t
  have hu : u.val = 0 := by omega
  funext a
  apply Fin.ext
  match a with
  | ⟨0, _⟩ => show win0_3.index t (0 : Fin 3) * 1 + 1 * u.val = (t.val / 16) % 8; omega
  | ⟨1, _⟩ => show win0_3.index t (1 : Fin 3) * 1024 + 1 * p.val = 1024 * ((t.val / 8) % 2) + p.val; omega
  | ⟨2, _⟩ => show win0_3.index t (2 : Fin 3) * 1024 + 1 * q.val = q.val; omega

/-- WHAT A WRITE-BACK WRITES is the block of `G` of the argument arrays. -/
theorem flushed_eq (c : Dev nD) (t : Fin cfg0.N) (hf : (cfg0.win 3).flush t = true) :
    (dats m 0 c).flushed 3 t
      = ((cfg0.win 3).blk t).view.read (Elt Ideal) (Cert.Spec.G (X m c) (W1 m c) (W2 m c)) := by
  have h7 : t.val % 8 = 7 := (flush0_3 t).mp hf
  have h0 : ¬t.val % 8 = 0 := by omega
  rw [flushed3, outC_eq m c t h0 h7]
  funext y
  obtain ⟨u, p, q, rfl⟩ : ∃ (u : Fin 1) (p q : Fin 1024), y = ix3 u p q := ⟨y 0, y 1, y 2, eq_ix3 y⟩
  show k0_pay1 (F := Ideal) (outsAt0 m c t.val t.isLt).2 (ix3 u p q)
    = Cert.Spec.G (X m c) (W1 m c) (W2 m c) (((cfg0.win 3).blk t).view.emb (ix3 u p q))
  rw [emb3 t u p q, pay1_apply, scratch_apply, Cert.Spec.G_tiles, h7,
    ← Fin.sum_univ_eq_sum_range (fun s => addend m c (8 * (t.val / 8) + s) (ix2 p q)) 8]
  refine Finset.sum_congr rfl fun fi _ => ?_
  have e1 : eOf (8 * (t.val / 8) + fi.val) = eOf t.val :=
    Fin.ext (by show (8 * (t.val / 8) + fi.val) / 16 % 8 = t.val / 16 % 8; omega)
  have e2 : tiOf (8 * (t.val / 8) + fi.val) = tiOf t.val :=
    Fin.ext (by show (8 * (t.val / 8) + fi.val) / 8 % 2 = t.val / 8 % 2; omega)
  have e3 : fiOf (8 * (t.val / 8) + fi.val) = fi :=
    Fin.ext (by show (8 * (t.val / 8) + fi.val) % 8 = fi.val; omega)
  show Cert.Spec.tile (X m c) (W1 m c) (W2 m c) (eOf (8 * (t.val / 8) + fi.val)) (tiOf (8 * (t.val / 8) + fi.val)) p q
      (fiOf (8 * (t.val / 8) + fi.val)) = _
  rw [e1, e2, e3]

/-- An index of the array is in point `t`'s output block iff each coordinate is in the block's range on its axis. -/
theorem mem_blk3 (t : Fin cfg0.N) (i : S8x2048x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v0).slice (win0_3.rect t)).set ↔ _
  rw [View.set_slice_whole, Rect.mem_set_unit]
  exact Iff.rfl

/-- Every element of the array is in the block some write-back writes: element `(e, r, q)` in that of the last point of
    the run of expert `e` and token tile `r / 1024`. -/
theorem cover (i : S8x2048x1024.Idx) :
    ∃ t : Fin cfg0.N, (cfg0.win 3).flush t = true ∧ i ∈ ((cfg0.win 3).blk t).view.set := by
  have hN : cfg0.N = 128 := N_0
  have hi0 : (i 0).val < 8 := (i 0).isLt
  have hi1 : (i 1).val < 2048 := (i 1).isLt
  have hi2 : (i 2).val < 1024 := (i 2).isLt
  obtain ⟨t, ht⟩ : ∃ t : Fin cfg0.N, t.val = 16 * (i 0).val + 8 * ((i 1).val / 1024) + 7 :=
    ⟨⟨16 * (i 0).val + 8 * ((i 1).val / 1024) + 7, by omega⟩, rfl⟩
  obtain ⟨-, -, -, -, -, -, -, -, -, e0, e1, e2⟩ := idx_facts t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- THE RESULT ARRAY after the run is `G` of the argument arrays. -/
theorem final (c : Dev nD) : (dats m 0 c).arrAt 3 cfg0.N = Cert.Spec.G (X m c) (W1 m c) (W2 m c) :=
  (dats m 0 c).arrAt_eq_of_cover 3 (Cert.Spec.G (X m c) (W1 m c) (W2 m c)) (fun t hf => flushed_eq m c t hf) cover

/-- The kernel's run, read: the result array at `G` of the arguments as launched, the arguments unchanged. -/
theorem run : θ_run defs (onTc (τ := τ) (main (F := Ideal))) ⟨m, fun _ => 0, ρ⟩ fun r => ∀ c : Dev nD,
      r.2.mem ((c : Thread nD τ).loc main_v0)
        = Cert.Spec.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelValue

end
-- ==== Proof.lean ====
/-
  An expert feed-forward block, eight experts over 2048 tokens each:
      out[e, t, q] = Σ_{f < 4096} gelu (Σ_{k < 1024} x[e, t, k] · w1[e, k, f]) · w2[e, f, q],
  gelu the tanh form (½·h)·(1 + tanh (c·(h + ((a·h)·h)·h))).

  The reference computes it as two batched contractions with the activation between them. The kernel walks a grid
  (expert, token tile of 1024, hidden tile of 512): at each point it forms the 1024 × 512 tile of hidden activations
  from the token block and a slab of w1, multiplies it by the matching slab of w2 and adds the product into a
  1024 × 1024 accumulator that is zeroed at hidden tile 0 and copied to the output block at hidden tile 7.

  Over the extended reals both are the same number element by element: the narrowings to bf16 are the identity there,
  each matrix product from a zero block is the plain sum of products, the activation is the same expression with the
  same four constants on both sides, and the accumulator after hidden tile 7 is the sum over the eight tiles of the
  sums inside each tile, which re-indexes to the sum over all 4096 hidden units (a finite sum in a commutative monoid:
  no finiteness of the inputs is used).

  Modules: Spec (the function and the tiling law), RefIsG (the reference is that function), Payload (one point's
  arithmetic at an element), Pieces (what one run of the body leaves, per control case), KernelFold (the accumulator
  along a run of points), KernelFinal (the result array), and the assembly below.
-/
import proofs.«150859_j21741124452873_1_alg».proof.Defs
import proofs.«150859_j21741124452873_1_alg».proof.Proof.Gen.Kernel
import proofs.«150859_j21741124452873_1_alg».proof.Proof.Gen.Kernel.Frame
import proofs.«150859_j21741124452873_1_alg».proof.Proof.Gen.KernelIdeal
import proofs.«150859_j21741124452873_1_alg».proof.Proof.Gen.KernelIdeal.Frame
import proofs.«150859_j21741124452873_1_alg».proof.Proof.Gen.KernelIdeal.Value
import proofs.«150859_j21741124452873_1_alg».proof.Proof.Gen.ReferenceIdeal
import proofs.«150859_j21741124452873_1_alg».proof.Proof.Gen.ReferenceIdeal.Run
import proofs.«150859_j21741124452873_1_alg».proof.Proof.Gen.ReferenceIdeal.Read
import proofs.«150859_j21741124452873_1_alg».proof.Proof.Gen.Pre_finite_inputs
import proofs.«150859_j21741124452873_1_alg».proof.Proof.RefIsG
import proofs.«150859_j21741124452873_1_alg».proof.Proof.KernelFinal
import Idealize.ShloMosaic.Adequacy
import Idealize.ShloMosaic.Init

noncomputable section

namespace Cert.Proof

open Idealize.ShloMosaic Idealize.SL.Sem

/-- The word-level kernel terminates without a fault and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at `G` of the (agreeing) arguments. -/
theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
